-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x80 : Shape := ⟨2, ![524288, 80]⟩
abbrev S524288 : Shape := ⟨1, ![524288]⟩
abbrev S80x80 : Shape := ⟨2, ![80, 80]⟩
abbrev S_ : Shape := ⟨0, ![]⟩

class Facts : Prop where
  bcast_S_S524288x80 : S_.BroadcastsInDim S524288x80 (![] : Fin 0 → Fin S524288x80.rank)
  reducesTo_S524288x80_S_d0_1 : S524288x80.ReducesTo [0, 1] S_
  h_S_ : 0 < S_.numel
  bcast_S_S80x80 : S_.BroadcastsInDim S80x80 (![] : Fin 0 → Fin S80x80.rank)
  reducesTo_S80x80_S_d0_1 : S80x80.ReducesTo [0, 1] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg1 : IVec S524288 32) (main_v12 : IVec S_ 1) (main_v15 : IVec S_ 1) : IVec S_ 1 :=
  let main_v16 : IVec S_ 1 := andi main_v12 main_v15
  let main_c_6 : IVec S_ 32 := constantI S_ 32 80#32
  let main_v17 : IVec S524288 32 := broadcastInDim S524288 ![] bcast_S_S524288 main_c_6
  let main_v18 : IVec S524288 1 := cmpi .slt main_arg1 main_v17
  let main_c_7 : IVec S_ 1 := constantI S_ 1 1#1
  let main_v19 : IVec S_ 1 := (fun x v => Host.reduce IntOp.andi x v reducesTo_S524288_S_d0 h_S_) main_v18 main_c_7
  let main_v20 : IVec S_ 1 := andi main_v16 main_v19
  main_v20

def fn {F : FTy → Type} [FloatOps F] (main_arg0 : FVec F S524288x80 .f32) (main_arg1 : IVec S524288 32) (main_arg2 : FVec F S80x80 .f32) : IVec S_ 1 :=
  let main_v0 : FVec F S524288x80 .f32 := Host.absf main_arg0
  let main_cst : FVec F S_ .f32 := constant S_ .f32 0x7F800000#32
  let main_v1 : FVec F S524288x80 .f32 := broadcastInDim S524288x80 ![] bcast_S_S524288x80 main_cst
  let main_v2 : IVec S524288x80 1 := cmpf .olt main_v0 main_v1
  let main_c : IVec S_ 1 := constantI S_ 1 1#1
  let main_v3 : IVec S_ 1 := (fun x v => Host.reduce IntOp.andi x v reducesTo_S524288x80_S_d0_1 h_S_) main_v2 main_c
  let main_v4 : FVec F S80x80 .f32 := Host.absf main_arg2
  let main_cst_0 : FVec F S_ .f32 := constant S_ .f32 0x7F800000#32
  let main_v5 : FVec F S80x80 .f32 := broadcastInDim S80x80 ![] bcast_S_S80x80 main_cst_0
  let main_v6 : IVec S80x80 1 := cmpf .olt main_v4 main_v5
  let main_c_1 : IVec S_ 1 := constantI S_ 1 1#1
  let main_v7 : IVec S_ 1 := (fun x v => Host.reduce IntOp.andi x v reducesTo_S80x80_S_d0_1 h_S_) main_v6 main_c_1
  let main_v8 : IVec S_ 1 := andi main_v3 main_v7
  let main_cst_2 : FVec F S_ .f32 := constant S_ .f32 0x00000000#32
  let main_v9 : FVec F S524288x80 .f32 := broadcastInDim S524288x80 ![] bcast_S_S524288x80 main_cst_2
  let main_v10 : IVec S524288x80 1 := cmpf .ogt main_arg0 main_v9
  let main_c_3 : IVec S_ 1 := constantI S_ 1 1#1
  let main_v11 : IVec S_ 1 := (fun x v => Host.reduce IntOp.andi x v reducesTo_S524288x80_S_d0_1 h_S_) main_v10 main_c_3
  let main_v12 : IVec S_ 1 := andi main_v8 main_v11
  let main_c_4 : IVec S_ 32 := constantI S_ 32 0#32
  let main_v13 : IVec S524288 32 := broadcastInDim S524288 ![] bcast_S_S524288 main_c_4
  let main_v14 : IVec S524288 1 := cmpi .sge main_arg1 main_v13
  let main_c_5 : IVec S_ 1 := constantI S_ 1 1#1
  let main_v15 : IVec S_ 1 := (fun x v => Host.reduce IntOp.andi x v reducesTo_S524288_S_d0 h_S_) main_v14 main_c_5
  fn_part1 (F := F) main_arg1 main_v12 main_v15
-- ==== Kernel.lean ====
abbrev S524288x80 : Shape := ⟨2, ![524288, 80]⟩
abbrev S524288 : Shape := ⟨1, ![524288]⟩
abbrev S80x80 : Shape := ⟨2, ![80, 80]⟩
abbrev S2x1x1 : Shape := ⟨3, ![2, 1, 1]⟩
abbrev S16384x80 : Shape := ⟨2, ![16384, 80]⟩
abbrev S16384 : Shape := ⟨1, ![16384]⟩
abbrev S1x1x1 : Shape := ⟨3, ![1, 1, 1]⟩
abbrev S1x1 : Shape := ⟨2, ![1, 1]⟩
abbrev S16384x1 : Shape := ⟨2, ![16384, 1]⟩
abbrev S80 : Shape := ⟨1, ![80]⟩
abbrev S1x80 : Shape := ⟨2, ![1, 80]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S524288x80, .f32⟩
  | .hbm, ⟨1, _⟩ => ⟨S524288, .i32⟩
  | .hbm, ⟨2, _⟩ => ⟨S80x80, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16384x80, .f32⟩
  | .local _ .vmem, ⟨1, _⟩ => ⟨S16384x80, .f32⟩
  | .local _ .vmem, ⟨2, _⟩ => ⟨S16384, .i32⟩
  | .local _ .vmem, ⟨3, _⟩ => ⟨S16384, .i32⟩
  | .local _ .vmem, ⟨4, _⟩ => ⟨S80x80, .f32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S524288x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S80x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384_S16384_0 : ∀ a, (![0] : Fin 1 → Nat) a + S16384.size a ≤ S16384.size a
  h_S16384 : 0 < S16384.numel
  iota_S16384x80_d1_w32 : S16384x80.Iotas .tc 32 [1]
  shapeCasts_S16384_S16384x1 : S16384.ShapeCasts S16384x1
  broadcasts_S16384x1_S16384x80 : S16384x1.Broadcasts S16384x80
  natLt_1_32 : 1 < 32
  bitsLt_bf16_f32 : FTy.bits .bf16 < FTy.bits .f32
  inb_S16384x80_S16384x80_0_0 : ∀ a, (![0, 0] : Fin 2 → Nat) a + S16384x80.size a ≤ S16384x80.size a
  h_S16384x80 : 0 < S16384x80.numel
  inb_S80x80_S80x80_0_0 : ∀ a, (![0, 0] : Fin 2 → Nat) a + S80x80.size a ≤ S80x80.size a
  h_S80x80 : 0 < S80x80.numel
  reduces_S80x80_S80 : S80x80.Reduces [0] S80
  shapeCasts_S80_S1x80 : S80.ShapeCasts S1x80
  reduces_S1x80_S1 : S1x80.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  dot_S16384x80_S16384x80_S80x80_0_0_1_1_n_n_wf : DotDims.WF S16384x80 S16384x80 S80x80 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x80.size a ≤ S524288x80.size a
  hwx0_0 : ∀ i : grid0.Coords, EltTy.bits .f32 = 32 ∨ (Rect.block (s := S524288x80) S16384x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S524288.size a
  hwx0_1 : ∀ i : grid0.Coords, EltTy.bits .i32 = 32 ∨ (Rect.block (s := S524288) S16384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x80.size a ≤ S80x80.size a
  hwx0_2 : ∀ i : grid0.Coords, EltTy.bits .f32 = 32 ∨ (Rect.block (s := S80x80) S80x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S16384x80_S16384x80_S80x80_0_0_1_1_n_n : DotDims S16384x80 S16384x80 S80x80 where
  lhsContracting := [0]
  rhsContracting := [0]
  lhsNonContracting := [1]
  rhsNonContracting := [1]
  lhsBatch := []
  rhsBatch := []
  wf := dot_S16384x80_S16384x80_S80x80_0_0_1_1_n_n_wf

abbrev win0_0 : Pipeline.Window sig grid0 :=
  Pipeline.Window.ofSpec (Memref.whole main_arg0) S16384x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x80 : Shape := ⟨2, ![524288, 80]⟩
abbrev S524288 : Shape := ⟨1, ![524288]⟩
abbrev S80x80 : Shape := ⟨2, ![80, 80]⟩
abbrev S_ : Shape := ⟨0, ![]⟩
abbrev S524288x1 : Shape := ⟨2, ![524288, 1]⟩

abbrev nBuf : Space → Nat
  | .hbm => 21
  | .vmem => 0
  | .smem => 0
  | _ => 0

abbrev bufTy : (tb : Table) → Fin (tcTables nBuf tb) → BufTy
  | .hbm, ⟨0, _⟩ => ⟨S524288x80, .f32⟩
  | .hbm, ⟨1, _⟩ => ⟨S524288, .i32⟩
  | .hbm, ⟨2, _⟩ => ⟨S80x80, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288, .i32⟩
  | .hbm, ⟨10, _⟩ => ⟨S524288x1, .i32⟩
  | .hbm, ⟨11, _⟩ => ⟨S524288x80, .f32⟩
  | .hbm, ⟨12, _⟩ => ⟨S524288x80, .f32⟩
  | .hbm, ⟨13, _⟩ => ⟨S524288x80, .f32⟩
  | .hbm, ⟨14, _⟩ => ⟨S_, .f32⟩
  | .hbm, ⟨15, _⟩ => ⟨S524288, .f32⟩
  | .hbm, ⟨16, _⟩ => ⟨S524288, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S524288x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  reducesTo_S524288x80_S524288_d1 : S524288x80.ReducesTo [1] S524288
  h_S_ : 0 < S_.numel
  reducesTo_S524288_S_d0 : S524288.ReducesTo [0] S_
  gather_S80x80_S524288x1_S524288x80_1_0_n_n_0_1_180_wf : GatherDims.WF S80x80 S524288x1 S524288x80 [1] [0] [] [0] [] 1 ![1, 80]

variable [Facts₀]

def gather_S80x80_S524288x1_S524288x80_1_0_n_n_0_1_180 : GatherDims S80x80 S524288x1 S524288x80 where
  offsetDims := [1]
  collapsedSliceDims := [0]
  operandBatchingDims := []
  startIndicesBatchingDims := []
  startIndexMap := [0]
  indexVectorDim := 1
  sliceSizes := ![1, 80]
  wf := gather_S80x80_S524288x1_S524288x80_1_0_n_n_0_1_180_wf

class Facts : Prop extends Facts₀ where

variable [Facts]
-- ==== Proof.Spec.lean ====
/-
  The mathematics shared by both sides, stated once over plain index types and importing no program.

  The loss: with `L t j` the logarithm of the probability of class `j` in sample `t`, `p` the table of prior rows and
  `g t` the label of sample `t`, the mean label-smoothing loss is `-(∑ t, ∑ j, L t j * p (g t) j) / 524288`.
  The kernel reaches it block by block: in a block of 16384 samples it contracts the one-hot matrix of the labels with the
  logarithms over the samples, `S i j = ∑ r, [g r = i] * L r j`, weights `S` entrywise by `p` and sums the 80 × 80 products
  (`blockSum`); sixteen block sums are accumulated in order on each of two cores (`acc`), the two core totals added, the
  total divided by 524288 and negated (`kernelVal`).  Over the reals the one-hot contraction picks row `g r` of `p`, so the
  block sum is `∑ r, ∑ j, L r j * p (g r) j`, and the blocks tile the samples.
-/
import Idealize.ShloMosaic.PureOps.Ideal
import Idealize.ShloMosaic.PureOps.Ideal.Laws
import Idealize.ShloMosaic.Lib.ValueIdx

noncomputable section

open scoped BigOperators

namespace Cert.Lsr

open Idealize.ShloMosaic Idealize.ShloMosaic.ValueIdx

/-- The shapes of the three arguments: probabilities, labels, prior rows. -/
abbrev SX : Shape := ⟨2, ![524288, 80]⟩
abbrev ST : Shape := ⟨1, ![524288]⟩
abbrev SP : Shape := ⟨2, ![80, 80]⟩

/-- The mean loss, a real number: minus the sum over samples and classes of log-probability times the label's prior row,
    over the number of samples. -/
def meanLoss (L : ℕ → Fin 80 → ℝ) (p : Fin 80 → Fin 80 → ℝ) (g : ℕ → Fin 80) : ℝ :=
  -(∑ t : Fin 524288, ∑ j : Fin 80, L t.val j * p (g t.val) j) / 524288

/-- The arguments lie in the domain: every probability has a real logarithm `L`, every prior entry is a real `p`, and
    every label is a class `g` in `[0, 80)`. -/
structure InDomain (x : SX.Idx → EReal) (tg : ST.Idx → BitVec 32) (P : SP.Idx → EReal)
    (L : ℕ → Fin 80 → ℝ) (p : Fin 80 → Fin 80 → ℝ) (g : ℕ → Fin 80) : Prop where
  hlog : ∀ (t : Fin 524288) (j : Fin 80), Ideal.log (x (ix2 t j)) = ((L t.val j : ℝ) : EReal)
  hP : ∀ i j : Fin 80, P (ix2 i j) = ((p i j : ℝ) : EReal)
  hg : ∀ t : Fin 524288, tg (ix1 t) = BitVec.ofNat 32 (g t.val).val

/-- The label of sample `t`, and zero past the last sample. -/
def tgAt (tg : ST.Idx → BitVec 32) (t : ℕ) : BitVec 32 := if h : t < 524288 then tg (ix1 ⟨t, h⟩) else 0
/-- The logarithm of the probability of class `j` in sample `t`, and zero past the last sample. -/
def logAt (x : SX.Idx → EReal) (t : ℕ) (j : Fin 80) : EReal := if h : t < 524288 then Ideal.log (x (ix2 ⟨t, h⟩ j)) else 0

/-- One entry of the one-hot matrix: 1 where the label word is class `i`, else 0. -/
def oh (w : BitVec 32) (i : Fin 80) : EReal := if w = BitVec.ofNat 32 i.val then 1 else 0

/-- What one block of 16384 samples contributes: the one-hot matrix contracted with the logarithms over the samples,
    weighted entrywise by the prior table, summed over rows and then over columns (each sum from a zero). -/
def blockSum (tb : Fin 16384 → BitVec 32) (lb : Fin 16384 → Fin 80 → EReal) (P : Fin 80 → Fin 80 → EReal) : EReal :=
  0 + ∑ j : Fin 80, (0 + ∑ i : Fin 80, (0 + ∑ r : Fin 16384, oh (tb r) i * lb r j) * P i j)

/-- Block `n` of the arguments' contribution. -/
def blockOf (x : SX.Idx → EReal) (tg : ST.Idx → BitVec 32) (P : SP.Idx → EReal) (n : ℕ) : EReal :=
  blockSum (fun r => tgAt tg (16384 * n + r.val)) (fun r j => logAt x (16384 * n + r.val) j) (fun i j => P (ix2 i j))

/-- Core `c0`'s accumulator after its block `k`: reset to zero before block 0, each block's sum added in order. -/
def acc (b : ℕ → EReal) (c0 : ℕ) : ℕ → EReal
  | 0 => 0 + b (16 * c0)
  | k + 1 => acc b c0 k + b (16 * c0 + (k + 1))

/-- The kernel's result from the block sums: the two cores' totals added from a zero, divided by 524288, negated. -/
def kernelVal (b : ℕ → EReal) : EReal :=
  -(Ideal.div (0 + ∑ c0 : Fin 2, acc b c0.val 15) (Ideal.ofBits .f32 0x49000000#32))

/-- The reference's result: per sample the sum over classes of log-probability times the label's prior entry, from a
    zero, negated; the samples summed from a zero; divided by 524288. `row t` is the row of the table sample `t` reads. -/
def refVal (lx : Fin 524288 → Fin 80 → EReal) (row : Fin 524288 → Fin 80 → EReal) : EReal :=
  Ideal.div (0 + ∑ t : Fin 524288, -(0 + ∑ j : Fin 80, lx t j * row t j)) (Ideal.ofBits .f32 0x49000000#32)

end Cert.Lsr

end
-- ==== Proof.Algebra.lean ====
/-
  The algebra that joins the two sides, over the reals: the one-hot contraction of a block picks each sample's prior row,
  the blocks tile the samples, and minus distributes over the finite sums once every term is real.
-/
import proofs.«402756_j75067438400064_3_alg».proof.Proof.Spec
import Mathlib.Data.Fintype.BigOperators
import Mathlib.Algebra.BigOperators.Fin
import Mathlib.Logic.Equiv.Fin.Basic

noncomputable section

open scoped BigOperators

namespace Cert.Lsr

open Idealize.ShloMosaic Idealize.ShloMosaic.ValueIdx

variable {x : SX.Idx → EReal} {tg : ST.Idx → BitVec 32} {P : SP.Idx → EReal}
  {L : ℕ → Fin 80 → ℝ} {p : Fin 80 → Fin 80 → ℝ} {g : ℕ → Fin 80}

namespace Alg

/-! ### Real sums inside the extended reals -/

/-- The inclusion of the reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion of the reals carries an indicator to an indicator. -/
theorem coe_indicator (c : Prop) [Decidable c] :
    (((if c then (1 : ℝ) else 0) : ℝ) : EReal) = if c then 1 else 0 := by
  split_ifs
  · exact EReal.coe_one
  · exact EReal.coe_zero

/-! ### The one-hot contraction -/

/-- Distinct classes have distinct label words: a one-hot entry at the word of class `a` is the indicator of `a = i`. -/
theorem oh_ofNat (a i : Fin 80) : oh (BitVec.ofNat 32 a.val) i = if a = i then 1 else 0 := by
  have ha : a.val < 2 ^ 32 := lt_trans a.isLt (by norm_num)
  have hi : i.val < 2 ^ 32 := lt_trans i.isLt (by norm_num)
  have hiff : (BitVec.ofNat 32 a.val = BitVec.ofNat 32 i.val) ↔ a = i := by
    constructor
    · intro h
      have h1 := congrArg BitVec.toNat h
      rw [BitVec.toNat_ofNat, BitVec.toNat_ofNat, Nat.mod_eq_of_lt ha, Nat.mod_eq_of_lt hi] at h1
      exact Fin.ext h1
    · intro h
      rw [h]
  unfold oh
  by_cases hai : a = i
  · rw [if_pos (hiff.mpr hai), if_pos hai]
  · rw [if_neg (fun h => hai (hiff.mp h)), if_neg hai]

/-- Over the reals, contracting the one-hot matrix of the labels with the logarithms over the samples and weighting by
    the table picks, for each sample, the table row of its label. -/
theorem onehot_contract (G : Fin 16384 → Fin 80) (Lb : Fin 16384 → Fin 80 → ℝ) (p : Fin 80 → Fin 80 → ℝ) :
    ∑ j : Fin 80, ∑ i : Fin 80, (∑ r : Fin 16384, (if G r = i then (1 : ℝ) else 0) * Lb r j) * p i j
      = ∑ r : Fin 16384, ∑ j : Fin 80, Lb r j * p (G r) j := by
  have key : ∀ j : Fin 80,
      ∑ i : Fin 80, (∑ r : Fin 16384, (if G r = i then (1 : ℝ) else 0) * Lb r j) * p i j
        = ∑ r : Fin 16384, Lb r j * p (G r) j := by
    intro j
    simp only [Finset.sum_mul]
    rw [Finset.sum_comm]
    refine Finset.sum_congr rfl fun r _ => ?_
    simp only [ite_mul, one_mul, zero_mul]
    rw [Finset.sum_ite_eq]
    rw [if_pos (Finset.mem_univ _)]
  simp only [key]
  exact Finset.sum_comm

/-! ### The blocks tile the samples -/

/-- A sum over `m * n` consecutive naturals is the sum over `m` blocks of `n`. -/
theorem sum_tile (m n : ℕ) (f : ℕ → ℝ) :
    ∑ t : Fin (m * n), f t.val = ∑ a : Fin m, ∑ r : Fin n, f (n * a.val + r.val) := by
  rw [← Fintype.sum_prod_type' (fun (a : Fin m) (r : Fin n) => f (n * a.val + r.val))]
  refine (Fintype.sum_equiv finProdFinEquiv _ _ ?_).symm
  rintro ⟨a, r⟩
  simp only [finProdFinEquiv_apply_val]
  rw [Nat.add_comm]

/-! ### One block, the accumulators, the constant -/

/-- The real contribution of sample `t`. -/
def term (L : ℕ → Fin 80 → ℝ) (p : Fin 80 → Fin 80 → ℝ) (g : ℕ → Fin 80) (t : ℕ) : ℝ :=
  ∑ j : Fin 80, L t j * p (g t) j

/-- The real contribution of block `n`. -/
def blockReal (L : ℕ → Fin 80 → ℝ) (p : Fin 80 → Fin 80 → ℝ) (g : ℕ → Fin 80) (n : ℕ) : ℝ :=
  ∑ r : Fin 16384, term L p g (16384 * n + r.val)

/-- Each of the 32 blocks is real, and its value is the sum of its samples' contributions. -/
theorem blockOf_eq (h : InDomain x tg P L p g) (n : ℕ) (hn : n < 32) :
    blockOf x tg P n = ((blockReal L p g n : ℝ) : EReal) := by
  have hlt : ∀ r : Fin 16384, 16384 * n + r.val < 524288 := by
    intro r
    have := r.isLt
    omega
  have ht : ∀ r : Fin 16384,
      tgAt tg (16384 * n + r.val) = BitVec.ofNat 32 (g (16384 * n + r.val)).val := by
    intro r
    unfold tgAt
    rw [dif_pos (hlt r)]
    exact h.hg ⟨_, hlt r⟩
  have hl : ∀ (r : Fin 16384) (j : Fin 80),
      logAt x (16384 * n + r.val) j = ((L (16384 * n + r.val) j : ℝ) : EReal) := by
    intro r j
    unfold logAt
    rw [dif_pos (hlt r)]
    exact h.hlog ⟨_, hlt r⟩ j
  have hreal : blockReal L p g n
      = ∑ j : Fin 80, ∑ i : Fin 80,
          (∑ r : Fin 16384, (if g (16384 * n + r.val) = i then (1 : ℝ) else 0) * L (16384 * n + r.val) j) * p i j := by
    unfold blockReal term
    exact (onehot_contract (fun r => g (16384 * n + r.val)) (fun r j => L (16384 * n + r.val) j) p).symm
  rw [hreal]
  unfold blockOf blockSum
  simp only [ht, hl, h.hP, oh_ofNat, coe_sum, EReal.coe_mul, coe_indicator, zero_add]

/-- A core's accumulator over real block sums is the real partial sum. -/
theorem acc_coe (B : ℕ → ℝ) (b : ℕ → EReal) (c0 k : ℕ)
    (hb : ∀ i, i ≤ k → b (16 * c0 + i) = ((B (16 * c0 + i) : ℝ) : EReal)) :
    acc b c0 k = ((∑ i ∈ Finset.range (k + 1), B (16 * c0 + i) : ℝ) : EReal) := by
  induction k with
  | zero =>
    have h0 := hb 0 (le_refl 0)
    rw [Nat.add_zero] at h0
    simp only [acc]
    rw [h0, zero_add, Finset.sum_range_one, Nat.add_zero]
  | succ k ih =>
    have hk := hb (k + 1) (le_refl _)
    simp only [acc]
    rw [ih (fun i hi => hb i (Nat.le_succ_of_le hi)), hk, Finset.sum_range_succ _ (k + 1), EReal.coe_add]

/-- The divisor's word denotes the number of samples, `2 ^ 19`. -/
theorem ofBits_samples : Ideal.ofBits .f32 0x49000000#32 = ((524288 : ℝ) : EReal) := by
  simp [Ideal.ofBits, Ideal.ieee, -EReal.coe_mul]; norm_num

/-- The samples' contributions, summed block by block on the two cores, are the sum over all samples. -/
theorem cores_tile (L : ℕ → Fin 80 → ℝ) (p : Fin 80 → Fin 80 → ℝ) (g : ℕ → Fin 80) :
    ∑ c0 : Fin 2, ∑ i ∈ Finset.range 16, blockReal L p g (16 * c0.val + i)
      = ∑ t : Fin 524288, term L p g t.val := by
  have h1 : ∑ c0 : Fin 2, ∑ i ∈ Finset.range 16, blockReal L p g (16 * c0.val + i)
      = ∑ n : Fin (2 * 16), blockReal L p g n.val := by
    rw [sum_tile 2 16 (blockReal L p g)]
    refine Finset.sum_congr rfl fun c0 _ => ?_
    exact Finset.sum_range (fun i => blockReal L p g (16 * c0.val + i))
  have h2 : ∑ n : Fin 32, blockReal L p g n.val = ∑ t : Fin (32 * 16384), term L p g t.val := by
    rw [sum_tile 32 16384 (term L p g)]
    rfl
  rw [h1]
  exact h2

end Alg

open Alg

/-- The kernel's value, computed from the arguments' blocks, is the mean loss. -/
theorem kernelVal_eq (h : InDomain x tg P L p g) : kernelVal (blockOf x tg P) = ((meanLoss L p g : ℝ) : EReal) := by
  have hacc : ∀ c0 : Fin 2, acc (blockOf x tg P) c0.val 15
      = ((∑ i ∈ Finset.range 16, blockReal L p g (16 * c0.val + i) : ℝ) : EReal) := by
    intro c0
    refine acc_coe (blockReal L p g) (blockOf x tg P) c0.val 15 fun i hi => ?_
    refine blockOf_eq h _ ?_
    have := c0.isLt
    omega
  unfold kernelVal
  simp only [hacc]
  rw [zero_add, ← coe_sum, cores_tile, ofBits_samples, Ideal.div_coe (by norm_num : (524288 : ℝ) ≠ 0),
    ← EReal.coe_mul, ← EReal.coe_neg, EReal.coe_eq_coe_iff]
  unfold meanLoss term
  ring

/-- The reference's value, with each sample reading the row of its label, is the mean loss. -/
theorem refVal_eq (h : InDomain x tg P L p g) :
    refVal (fun t j => Ideal.log (x (ix2 t j))) (fun t j => P (ix2 (g t.val) j)) = ((meanLoss L p g : ℝ) : EReal) := by
  have hsum : (0 : EReal) + ∑ t : Fin 524288, -(0 + ∑ j : Fin 80, Ideal.log (x (ix2 t j)) * P (ix2 (g t.val) j))
      = ((-(∑ t : Fin 524288, ∑ j : Fin 80, L t.val j * p (g t.val) j) : ℝ) : EReal) := by
    rw [← Finset.sum_neg_distrib]
    simp only [h.hlog, h.hP, coe_sum, EReal.coe_neg, EReal.coe_mul, zero_add]
  unfold refVal
  rw [hsum, ofBits_samples, Ideal.div_coe (by norm_num : (524288 : ℝ) ≠ 0), ← EReal.coe_mul, EReal.coe_eq_coe_iff]
  unfold meanLoss
  ring

end Cert.Lsr

end
-- ==== Proof.PreFacts.lean ====
/-
  The precondition read: where it holds, every probability is a positive real (so its logarithm is a real), every prior
  entry is a real, and every label is a class in [0, 80).
-/
import proofs.«402756_j75067438400064_3_alg».proof.Pre_finite_inputs
import proofs.«402756_j75067438400064_3_alg».proof.Proof.Spec
import Idealize.ShloMosaic.Lib.ReduceAll
import Idealize.ShloMosaic.Lib.StableHlo.Predicate

noncomputable section

namespace Cert.Lsr

open Idealize.ShloMosaic Idealize.ShloMosaic.ValueIdx

namespace PreFacts

/-- An extended real whose absolute value lies strictly below the pattern of +∞ is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  induction a using EReal.rec with
  | bot => simp at h
  | coe r => exact ⟨r, rfl⟩
  | top => simp at h

/-- An extended real strictly above the pattern of zero is positive. -/
theorem pos_of_gt_zero (a : EReal)
    (h : Ideal.cmp .ogt a (Ideal.ofBits .f32 0x00000000#32) = 1#1) : 0 < a := by
  rw [Ideal.ofBits_zero_f32] at h
  simpa only [Ideal.cmp, StableHlo.Predicate.ofBool_eq_one_iff, decide_eq_true_eq] using h

/-- The logarithm of a positive real is the real logarithm. -/
theorem log_of_pos_real (a : EReal) (r : ℝ) (ha : a = (r : EReal)) (hpos : 0 < a) :
    Ideal.log a = ((Real.log a.toReal : ℝ) : EReal) := by
  subst ha
  have hr : 0 < r := EReal.coe_pos.mp hpos
  rw [Ideal.log_coe, if_neg (not_le.mpr hr), EReal.toReal_coe]

/-- A word that is at least 0 and below 80, both read signed, has a value below 80. -/
theorem toNat_lt_of_signed_range (w : BitVec 32) (h0 : IntOp.cmpi .sge w 0#32 = 1#1)
    (h1 : IntOp.cmpi .slt w 80#32 = 1#1) : w.toNat < 80 := by
  rw [IntOp.cmpi_sge] at h0
  rw [IntOp.cmpi_slt] at h1
  have e0 : (0#32 : BitVec 32).toInt = 0 := by decide
  have e80 : (80#32 : BitVec 32).toInt = 80 := by decide
  rw [e0] at h0
  rw [e80] at h1
  have hc := BitVec.toInt_eq_toNat_cond w
  have hl := w.isLt
  split at hc <;> omega

/-- A 32-bit word is the word of its value. -/
theorem eq_ofNat_toNat (w : BitVec 32) : w = BitVec.ofNat 32 w.toNat := by
  apply BitVec.eq_of_toNat_eq
  rw [BitVec.toNat_ofNat, Nat.mod_eq_of_lt w.isLt]

end PreFacts

open PreFacts

variable [Cert.Pre_finite_inputs.Facts]

/-- Where the precondition evaluates to true the arguments lie in the domain. -/
theorem inDomain_of_pre (x : FVec Ideal Cert.Pre_finite_inputs.S524288x80 .f32) (tg : IVec Cert.Pre_finite_inputs.S524288 32)
    (P : FVec Ideal Cert.Pre_finite_inputs.S80x80 .f32)
    (h : Cert.Pre_finite_inputs.fn (F := Ideal) x tg P = fun _ => 1#1) :
    ∃ (L : ℕ → Fin 80 → ℝ) (p : Fin 80 → Fin 80 → ℝ) (g : ℕ → Fin 80), InDomain x tg P L p g := by
  -- the shape with no axes has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  simp only [andi, IntOp.andi_eq_one] at h0
  obtain ⟨⟨⟨⟨hx, hP⟩, hpos⟩, hge⟩, hlt⟩ := h0
  -- every probability is a real
  have hxr : ∀ (t : Fin 524288) (j : Fin 80), ∃ r : ℝ, x (ix2 t j) = (r : EReal) := fun t j =>
    real_of_abs_lt_inf _ (Host.reduce_andi_all _ _ _ _ _ hx (ix2 t j))
  -- every probability is positive
  have hxp : ∀ (t : Fin 524288) (j : Fin 80), 0 < x (ix2 t j) := fun t j =>
    pos_of_gt_zero _ (Host.reduce_andi_all _ _ _ _ _ hpos (ix2 t j))
  -- every prior entry is a real
  have hPr : ∀ i j : Fin 80, ∃ r : ℝ, P (ix2 i j) = (r : EReal) := fun i j =>
    real_of_abs_lt_inf _ (Host.reduce_andi_all _ _ _ _ _ hP (ix2 i j))
  -- every label is below 80
  have hlab : ∀ t : Fin 524288, (tg (ix1 t)).toNat < 80 := fun t =>
    toNat_lt_of_signed_range _ (Host.reduce_andi_all _ _ _ _ _ hge (ix1 t)) (Host.reduce_andi_all _ _ _ _ _ hlt (ix1 t))
  refine ⟨fun t j => if ht : t < 524288 then Real.log (x (ix2 ⟨t, ht⟩ j)).toReal else 0,
    fun i j => (P (ix2 i j)).toReal,
    fun t => if ht : t < 524288 then ⟨(tg (ix1 ⟨t, ht⟩)).toNat, hlab ⟨t, ht⟩⟩ else 0, ?_, ?_, ?_⟩
  · intro t j
    obtain ⟨r, hr⟩ := hxr t j
    rw [dif_pos t.isLt]
    exact log_of_pos_real _ r hr (hxp t j)
  · intro i j
    obtain ⟨r, hr⟩ := hPr i j
    rw [hr, EReal.toReal_coe]
  · intro t
    rw [dif_pos t.isLt]
    exact eq_ofNat_toNat _

end Cert.Lsr

end
-- ==== Proof.RefValue.lean ====
/-
  The reference read at the ideal instance: its one result is `Cert.Lsr.refVal` of the logarithms and of the table rows
  the labels select, and under the domain hypotheses that is the mean loss.
-/
import proofs.«402756_j75067438400064_3_alg».proof.Proof.Gen.ReferenceIdeal.Run
import proofs.«402756_j75067438400064_3_alg».proof.Proof.Gen.ReferenceIdeal.Read
import proofs.«402756_j75067438400064_3_alg».proof.Proof.Spec

noncomputable section

namespace Cert.Lsr.Ref

open Idealize.ShloMosaic Idealize.ShloMosaic.ValueIdx Cert.ReferenceIdeal Cert.ReferenceIdeal.Gen

open scoped BigOperators

/-- The reference's result term (the generated run's), as a function of the three argument arrays. -/
def term (x : FVec Ideal S524288x80 .f32) (tg : IVec S524288 32) (P : FVec Ideal S80x80 .f32) : FVec Ideal S_ .f32 :=
  Host.divf (F := Ideal) (Host.reduceAdd (F := Ideal) (Host.negf (F := Ideal) (Host.reduceAdd (F := Ideal) (mulf (Host.log (F := Ideal) x) (Host.gather gather_S80x80_S524288x1_S524288x80_1_0_n_n_0_1_180 P (broadcastInDim S524288x1 ![0] bcast_S524288_S524288x1_0 (select (cmpi .slt tg (broadcastInDim S524288 ![] bcast_S_S524288 (constantI S_ 32 0#32))) (addi tg (broadcastInDim S524288 ![] bcast_S_S524288 (constantI S_ 32 80#32))) tg)))) (constant (F := Ideal) S_ .f32 0x00000000#32) reducesTo_S524288x80_S524288_d1 h_S_)) (constant (F := Ideal) S_ .f32 0x00000000#32) reducesTo_S524288_S_d0 h_S_) (constant (F := Ideal) S_ .f32 0x49000000#32)

/-! ## Indices of a one-axis array, and words that are classes -/

/-- A rank-1 index set is its coordinate's range … -/
def idxEquiv1 {n : Nat} : Fin n ≃ (⟨1, ![n]⟩ : Shape).Idx where
  toFun := ix1
  invFun j := j 0
  left_inv _ := rfl
  right_inv j := (eq_ix1 j).symm

/-- … so a sum over it is the sum over the coordinate. -/
theorem sum_idx1 {M : Type*} [AddCommMonoid M] {n : Nat} (f : (⟨1, ![n]⟩ : Shape).Idx → M) :
    ∑ i, f i = ∑ a : Fin n, f (ix1 a) := (Equiv.sum_comp idxEquiv1 f).symm

/-- The word of a class in [0, 80) is not negative as a signed integer: the signed comparison with zero is the bit 0. -/
theorem cmpi_slt_class (c : Fin 80) : IntOp.cmpi .slt (BitVec.ofNat 32 c.val) 0#32 = 0#1 := by
  revert c; decide

/-- Read as a signed integer, the word of a class is the class. -/
theorem toInt_toNat_class (c : Fin 80) : (BitVec.ofNat 32 c.val).toInt.toNat = c.val := by
  revert c; decide

/-! ## The start indices and the gathered rows -/

/-- The start index of sample `t`: the label is a class, so it is not negative, the selection keeps it, and the
    broadcast to a column reads it back. -/
theorem startIdx_apply (tg : IVec S524288 32) (g : ℕ → Fin 80)
    (hg : ∀ t : Fin 524288, tg (ix1 t) = BitVec.ofNat 32 (g t.val).val) (t : Fin 524288) :
    Read.val_main_v5 (F := Ideal) tg (ix2 t (0 : Fin 1)) = BitVec.ofNat 32 (g t.val).val := by
  have hi : Read.idx_main_v5 (ix2 t (0 : Fin 1)) = ix1 t := by
    funext a; match a with | ⟨0, _⟩ => rfl
  rw [Read.val_main_v5_apply, Read.val_main_v4_apply, Read.val_main_v1_apply, Read.val_main_v0_apply,
    Read.val_main_c_apply, hi, hg t, cmpi_slt_class, select_zero]

/-- The gathered array at `(t, k)`: row `g t` of the table at column `k`. On the row axis the slice starts at the
    start index read signed and clamped into [0, 79], which for a class is the class itself; the row axis is collapsed
    and nothing is batched, so nothing is added to it. On the column axis the slice starts at 0 and the offset is `k`. -/
theorem label_apply (tg : IVec S524288 32) (P : FVec Ideal S80x80 .f32) (g : ℕ → Fin 80)
    (hg : ∀ t : Fin 524288, tg (ix1 t) = BitVec.ofNat 32 (g t.val).val) (t : Fin 524288) (k : Fin 80) :
    Read.val_main_v6 (F := Ideal) tg P (ix2 t k) = P (ix2 (g t.val) k) := by
  show P (gather_S80x80_S524288x1_S524288x80_1_0_n_n_0_1_180.operandIdx (ix2 t k) (Read.val_main_v5 (F := Ideal) tg)) = _
  refine congrArg P ?_
  funext a
  refine Fin.ext ?_
  match a with
  | ⟨0, _⟩ =>
    show gather_S80x80_S524288x1_S524288x80_1_0_n_n_0_1_180.start (ix2 t k) (Read.val_main_v5 (F := Ideal) tg) 0
        + gather_S80x80_S524288x1_S524288x80_1_0_n_n_0_1_180.batchCoord (ix2 t k) 0
        + gather_S80x80_S524288x1_S524288x80_1_0_n_n_0_1_180.offCoord (ix2 t k) 0 = (g t.val).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S80x80_S524288x1_S524288x80_1_0_n_n_0_1_180.startIndexMap from
      List.mem_singleton.mpr rfl)]
    have hsi : gather_S80x80_S524288x1_S524288x80_1_0_n_n_0_1_180.siIdx (ix2 t k)
        ⟨List.idxOf (0 : Fin 2) gather_S80x80_S524288x1_S524288x80_1_0_n_n_0_1_180.startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi, startIdx_apply tg g hg t, toInt_toNat_class]
    have h79 : S80x80.size 0 - gather_S80x80_S524288x1_S524288x80_1_0_n_n_0_1_180.sliceSizes 0 = 79 := rfl
    rw [h79]
    have := (g t.val).isLt
    omega
  | ⟨1, _⟩ =>
    show gather_S80x80_S524288x1_S524288x80_1_0_n_n_0_1_180.start (ix2 t k) (Read.val_main_v5 (F := Ideal) tg) 1
        + gather_S80x80_S524288x1_S524288x80_1_0_n_n_0_1_180.batchCoord (ix2 t k) 1
        + gather_S80x80_S524288x1_S524288x80_1_0_n_n_0_1_180.offCoord (ix2 t k) 1 = k.val
    rw [GatherDims.batchCoord_eq_zero _ _ _ List.not_mem_nil]
    have hs : gather_S80x80_S524288x1_S524288x80_1_0_n_n_0_1_180.start (ix2 t k) (Read.val_main_v5 (F := Ideal) tg) 1 = 0 := by
      unfold GatherDims.start
      rw [dif_neg (show (1 : Fin 2) ∉ gather_S80x80_S524288x1_S524288x80_1_0_n_n_0_1_180.startIndexMap by decide)]
    have ho : gather_S80x80_S524288x1_S524288x80_1_0_n_n_0_1_180.offCoord (ix2 t k) 1 = k.val := by
      unfold GatherDims.offCoord
      rw [dif_pos (show (1 : Fin 2) ∈ gather_S80x80_S524288x1_S524288x80_1_0_n_n_0_1_180.sKept by decide)]
      rfl
    rw [hs, ho, Nat.zero_add]

/-- With every label a class in [0, 80), the result is `refVal` of the logarithms and of the rows the labels select. -/
theorem term_eq (x : FVec Ideal S524288x80 .f32) (tg : IVec S524288 32) (P : FVec Ideal S80x80 .f32) (g : ℕ → Fin 80)
    (hg : ∀ t : Fin 524288, tg (ix1 t) = BitVec.ofNat 32 (g t.val).val) :
    term x tg P = fun _ => Cert.Lsr.refVal (fun t j => Ideal.log (x (ix2 t j))) (fun t j => P (ix2 (g t.val) j)) := by
  funext i
  -- the run's term is the last stage of the generated reading, stage by stage
  show Read.val_main_v12 (F := Ideal) x tg P i
    = Cert.Lsr.refVal (fun t j => Ideal.log (x (ix2 t j))) (fun t j => P (ix2 (g t.val) j))
  rw [Read.val_main_v12_apply, Read.val_main_v11_apply, Read.val_main_cst_2_apply, Read.val_main_cst_1_apply]
  unfold Cert.Lsr.refVal
  simp only [Ideal.hostDivf_def, Ideal.ofBits_def, Ideal.ofBits_zero_f32]
  -- the outer sum runs over the samples
  rw [sum_idx1]
  refine congrArg (fun s => Ideal.div (0 + s) (Ideal.ofBits .f32 0x49000000#32)) (Finset.sum_congr rfl fun t _ => ?_)
  show Read.val_main_v10 (F := Ideal) x tg P (ix1 t) = _
  rw [Read.val_main_v10_apply, Read.val_main_v9_apply, Read.val_main_cst_apply]
  simp only [Ideal.hostNegf_def, Ideal.negf_def, Ideal.ofBits_def, Ideal.ofBits_zero_f32]
  -- the inner sum runs over the classes; each product is the logarithm times the selected row's entry
  refine congrArg (fun s => -(0 + s)) (Finset.sum_congr rfl fun k _ => ?_)
  have hi : Read.idx_main_v9 (ix1 t) k = ix2 t k := by
    funext a; match a with | ⟨0, _⟩ => rfl | ⟨1, _⟩ => rfl
  rw [hi, Read.val_main_v8_apply, Read.val_main_v7_apply, label_apply tg P g hg t k]
  rfl

end Cert.Lsr.Ref

end
-- ==== Proof.KerPayload.lean ====
/-
  The body's arithmetic read at its one index: the accumulator update adds the block's sum (`Cert.Lsr.blockSum`) to the
  accumulator, the reset value is zero, and the result block is the accumulator.
-/
import proofs.«402756_j75067438400064_3_alg».proof.Proof.Gen.KernelIdeal.Skeleton
import proofs.«402756_j75067438400064_3_alg».proof.Proof.Spec
import Idealize.ShloMosaic.Lib.Pipeline.Value
import Idealize.ShloMosaic.Lib.ValueLayout

noncomputable section

namespace Cert.Lsr.Ker

open Idealize.ShloMosaic Idealize.ShloMosaic.ValueIdx Cert.KernelIdeal Cert.KernelIdeal.Gen

open scoped BigOperators

/-! ## Two column-layout readings -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- The comparison bit widened and read as a signed integer is `1` where the two words agree and `0` elsewhere. -/
theorem onehot_word (w : BitVec 32) (i : Fin 80) :
    (FloatOps.sitofp (F := Ideal) .f32 ((IntOp.cmpi .eq w (BitVec.ofNat 32 i.val)).setWidth 32)) = Cert.Lsr.oh w i := by
  unfold Cert.Lsr.oh
  by_cases h : w = BitVec.ofNat 32 i.val
  · have hc : IntOp.cmpi .eq w (BitVec.ofNat 32 i.val) = 1#1 := by
      unfold IntOp.cmpi; rw [h]; simp
    rw [if_pos h, hc]
    show ((((1#1 : BitVec 1).setWidth 32).toInt : ℝ) : EReal) = 1
    have h1 : ((1#1 : BitVec 1).setWidth 32).toInt = 1 := by decide
    rw [h1]; simp
  · have hb : (w == BitVec.ofNat 32 i.val) = false := beq_eq_false_iff_ne.mpr h
    have hc : IntOp.cmpi .eq w (BitVec.ofNat 32 i.val) = 0#1 := by
      unfold IntOp.cmpi
      show BitVec.ofBool (w == BitVec.ofNat 32 i.val) = 0#1
      rw [hb]; rfl
    rw [if_neg h, hc]
    show ((((0#1 : BitVec 1).setWidth 32).toInt : ℝ) : EReal) = 0
    have h0 : ((0#1 : BitVec 1).setWidth 32).toInt = 0 := by decide
    rw [h0]; simp

variable [Cert.KernelIdeal.Facts]

/-- The one-hot matrix of the labels at `(r, i)`. -/
theorem onehot_apply (v3 : Vec Ideal S16384 .i32) (r : Fin 16384) (i : Fin 80) :
    (truncf .bf16 (sitofp .f32 (extui 32 (cmpi .eq
        (broadcastTo S16384x80 (shapeCast S16384x1 v3 shapeCasts_S16384_S16384x1) broadcasts_S16384x1_S16384x80)
        (iota .tc S16384x80 32 [1] iota_S16384x80_d1_w32)) natLt_1_32)) bitsLt_bf16_f32 : FVec Ideal S16384x80 .bf16) (ix2 r i)
      = Cert.Lsr.oh (v3 (ix1 r)) i := by
  show FloatOps.sitofp (F := Ideal) .f32 ((IntOp.cmpi .eq
      (broadcastTo S16384x80 (shapeCast S16384x1 v3 shapeCasts_S16384_S16384x1) broadcasts_S16384x1_S16384x80 (ix2 r i))
      (iota .tc S16384x80 32 [1] iota_S16384x80_d1_w32 (ix2 r i))).setWidth 32) = _
  rw [broadcastTo_a1_ab_apply _ broadcasts_S16384x1_S16384x80 r i,
    shapeCast_a_a1_apply v3 shapeCasts_S16384_S16384x1 r 0,
    iota_single_apply .tc S16384x80 32 1 iota_S16384x80_d1_w32 (ix2 r i)]
  exact onehot_word (v3 (ix1 r)) i

/-! ## The two sums and the contraction -/

/-- The sum over the rows of an `80 × 80` table, at column `j`. -/
theorem sum_rows (src : FVec Ideal S80x80 .f32) (j : Fin 80) :
    multiReduction .add [0] S80 src 0x00000000#32 reduces_S80x80_S80 (.inl rfl) rfl (ix1 j) = ∑ i : Fin 80, src (ix2 i j) := by
  refine (Ideal.multiReduction_add_single src 0x00000000#32 reduces_S80x80_S80 (.inl rfl) rfl (ix1 j)).trans ?_
  exact Finset.sum_congr rfl fun k _ => congrArg src (Shape.idx_ext₂ rfl rfl)

/-- The sum along the one row of a `1 × 80` table. -/
theorem sum_lane (src : FVec Ideal S1x80 .f32) :
    multiReduction .add [1] S1 src 0x00000000#32 reduces_S1x80_S1 (.inl rfl) rfl (ix1 (0 : Fin 1)) = ∑ j : Fin 80, src (ix2 (0 : Fin 1) j) := by
  refine (Ideal.multiReduction_add_single src 0x00000000#32 reduces_S1x80_S1 (.inl rfl) rfl (ix1 (0 : Fin 1))).trans ?_
  exact Finset.sum_congr rfl fun k _ => congrArg src (Shape.idx_ext₂ rfl rfl)

/-- The contraction's index maps, coordinate by coordinate. -/
theorem lhs_0 (j : S80x80.Idx) (k : dot_S16384x80_S16384x80_S80x80_0_0_1_1_n_n.contr.Idx) :
    (dot_S16384x80_S16384x80_S80x80_0_0_1_1_n_n.lhsIdx j k 0).val = (k ⟨0, Nat.one_pos⟩).val :=
  DotDims.lhsIdx_val_of_single _ rfl j k
theorem lhs_1 (j : S80x80.Idx) (k : dot_S16384x80_S16384x80_S80x80_0_0_1_1_n_n.contr.Idx) :
    (dot_S16384x80_S16384x80_S80x80_0_0_1_1_n_n.lhsIdx j k 1).val = (j 0).val := rfl
theorem rhs_0 (j : S80x80.Idx) (k : dot_S16384x80_S16384x80_S80x80_0_0_1_1_n_n.contr.Idx) :
    (dot_S16384x80_S16384x80_S80x80_0_0_1_1_n_n.rhsIdx j k 0).val = (k ⟨0, Nat.one_pos⟩).val :=
  DotDims.rhsIdx_val_of_single _ rfl j k
theorem rhs_1 (j : S80x80.Idx) (k : dot_S16384x80_S16384x80_S80x80_0_0_1_1_n_n.contr.Idx) :
    (dot_S16384x80_S16384x80_S80x80_0_0_1_1_n_n.rhsIdx j k 1).val = (j 1).val := rfl

/-- The product of two `16384 × 80` blocks contracted over their rows, into a zero table, at `(i, j)`. -/
theorem mm_apply (A B : FVec Ideal S16384x80 .bf16) (i j : Fin 80) :
    matmul dot_S16384x80_S16384x80_S80x80_0_0_1_1_n_n none A B (constant S80x80 .f32 0x00000000#32) (ix2 i j)
      = ∑ r : Fin 16384, A (ix2 r i) * B (ix2 r j) := by
  refine (Ideal.matmul_constant_zero_apply dot_S16384x80_S16384x80_S80x80_0_0_1_1_n_n none A B (ix2 i j)).trans ?_
  refine (Equiv.sum_comp (contrEquiv1 dot_S16384x80_S16384x80_S80x80_0_0_1_1_n_n 16384 rfl rfl).symm _).symm.trans ?_
  refine Finset.sum_congr rfl fun r _ => ?_
  have hk := contrEquiv1_symm_val dot_S16384x80_S16384x80_S80x80_0_0_1_1_n_n 16384 rfl rfl r
  have hl : dot_S16384x80_S16384x80_S80x80_0_0_1_1_n_n.lhsIdx (ix2 i j)
      ((contrEquiv1 dot_S16384x80_S16384x80_S80x80_0_0_1_1_n_n 16384 rfl rfl).symm r) = ix2 r i :=
    Shape.idx_ext₂ ((lhs_0 _ _).trans hk) (lhs_1 _ _)
  have hr : dot_S16384x80_S16384x80_S80x80_0_0_1_1_n_n.rhsIdx (ix2 i j)
      ((contrEquiv1 dot_S16384x80_S16384x80_S80x80_0_0_1_1_n_n 16384 rfl rfl).symm r) = ix2 r j :=
    Shape.idx_ext₂ ((rhs_0 _ _).trans hk) (rhs_1 _ _)
  rw [hl, hr]

/-! ## The three payloads -/

/-- The reset stores zero. -/
theorem pay1_apply : (k0_pay1 (F := Ideal)) (ix2 0 0) = 0 := by
  unfold k0_pay1
  rw [shapeCast_self]
  exact Ideal.ofBits_zero_f32

/-- The update: the accumulator plus the block's sum. -/
theorem pay2_apply (v3 : Vec Ideal S16384 .i32) (v11 : Vec Ideal S16384x80 .f32) (v15 : Vec Ideal S80x80 .f32) (v21 : Vec Ideal S1x1 .f32) :
    k0_pay2 (F := Ideal) v3 v11 v15 v21 (ix2 0 0)
      = v21 (ix2 0 0) + Cert.Lsr.blockSum (fun r => v3 (ix1 r)) (fun r j => Ideal.log (v11 (ix2 r j))) (fun i j => v15 (ix2 i j)) := by
  unfold k0_pay2 Cert.Lsr.blockSum
  dsimp only
  refine (congrFun (shapeCast_self _ shapeCasts_S1x1_S1x1) (ix2 0 0)).trans ?_
  refine congrArg (v21 (ix2 0 0) + ·) ?_
  refine (shapeCast_a_1a_apply _ shapeCasts_S1_S1x1 0 0).trans ?_
  refine (sum_lane _).trans ?_
  refine Eq.trans ?_ (zero_add _).symm
  refine Finset.sum_congr rfl fun j _ => ?_
  refine (shapeCast_a_1a_apply _ shapeCasts_S80_S1x80 0 j).trans ?_
  refine (sum_rows _ j).trans ?_
  refine Eq.trans ?_ (zero_add _).symm
  refine Finset.sum_congr rfl fun i _ => ?_
  refine congrArg (· * v15 (ix2 i j)) ?_
  refine (mm_apply _ _ i j).trans ?_
  refine Eq.trans ?_ (zero_add _).symm
  refine Finset.sum_congr rfl fun r _ => ?_
  rw [onehot_apply v3 r i]
  rfl

/-- The result block is the accumulator. -/
theorem pay3_apply (v29 : Vec Ideal S1x1 .f32) : k0_pay3 (F := Ideal) v29 (ix3 0 0 0) = v29 (ix2 0 0) := by
  unfold k0_pay3
  exact shapeCast_ab_1ab_apply v29 shapeCasts_S1x1_S1x1x1 0 0 0

end Cert.Lsr.Ker

end
-- ==== Proof.KerValue.lean ====
/-
  The kernel's result read off its run: what each grid point leaves in the carried accumulator, the accumulator after
  every point by induction, the two result entries, and the host operations after the region.
-/
import proofs.«402756_j75067438400064_3_alg».proof.Proof.Gen.KernelIdeal.Frame
import proofs.«402756_j75067438400064_3_alg».proof.Proof.KerPayload
import proofs.«402756_j75067438400064_3_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Lsr.Ker

open Cert.KernelIdeal Cert.KernelIdeal.Gen Idealize.ShloMosaic.ValueIdx

section Pieces

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A point that resets (the first of a core's sixteen) leaves the accumulator at the update of the reset value. -/
theorem sout_A (c : Dev nD) (i : grid0.Coords) (a2 : Memref sig .tc .vmem S16384x80 .f32) (h2 : a2.IsWhole) (a3 : Memref sig .tc .vmem S16384 .i32) (h3 : a3.IsWhole) (a4 : Memref sig .tc .vmem S80x80 .f32) (h4 : a4.IsWhole) (a5 : Memref sig .tc .vmem S1x1x1 .f32) (h5 : a5.IsWhole) (a6 : Memref sig .tc .vmem S1x1 .f32) (h6 : a6.IsWhole) (hc0 : cond0_0 i) (hc1 : ¬cond0_1 i)
    (x0 : Vec F S16384x80 .f32) (x1 : Vec F S16384 .i32) (x2 : Vec F S80x80 .f32) :
    sout0_A_0 c i a2 h2 a3 h3 a4 h4 a5 h5 a6 h6 hc0 hc1 x0 x1 x2 = k0_pay2 x1 x0 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, View.ld_unit_zero (S := S16384x80) hz2,
    View.ld_unit_zero (S := S16384) hz1, View.ld_unit_zero (S := S80x80) hz2]

/-- A point that neither resets nor writes back leaves the accumulator at the update of what it found. -/
theorem sout_B (c : Dev nD) (i : grid0.Coords) (a2 : Memref sig .tc .vmem S16384x80 .f32) (h2 : a2.IsWhole) (a3 : Memref sig .tc .vmem S16384 .i32) (h3 : a3.IsWhole) (a4 : Memref sig .tc .vmem S80x80 .f32) (h4 : a4.IsWhole) (a5 : Memref sig .tc .vmem S1x1x1 .f32) (h5 : a5.IsWhole) (a6 : Memref sig .tc .vmem S1x1 .f32) (h6 : a6.IsWhole) (hc0 : ¬cond0_0 i) (hc1 : ¬cond0_1 i)
    (x0 : Vec F S16384x80 .f32) (x1 : Vec F S16384 .i32) (x2 : Vec F S80x80 .f32) (xs0 : Vec F S1x1 .f32) :
    sout0_B_0 c i a2 h2 a3 h3 a4 h4 a5 h5 a6 h6 hc0 hc1 x0 x1 x2 xs0 = k0_pay2 x1 x0 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread, View.ld_unit_zero (S := S16384x80) hz2,
    View.ld_unit_zero (S := S16384) hz1, View.ld_unit_zero (S := S80x80) hz2, View.ld_unit_zero (S := S1x1) hz2]

/-- The last point of a core's sixteen leaves the accumulator at the update of what it found, -/
theorem sout_C (c : Dev nD) (i : grid0.Coords) (a2 : Memref sig .tc .vmem S16384x80 .f32) (h2 : a2.IsWhole) (a3 : Memref sig .tc .vmem S16384 .i32) (h3 : a3.IsWhole) (a4 : Memref sig .tc .vmem S80x80 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S16384x80 .f32) (x1 : Vec F S16384 .i32) (x2 : Vec F S80x80 .f32) (xs0 : Vec F S1x1 .f32) :
    sout0_C_0 c i a2 h2 a3 h3 a4 h4 a5 h5 a6 h6 hc0 hc1 x0 x1 x2 xs0 = k0_pay2 x1 x0 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread, View.ld_unit_zero (S := S16384x80) hz2,
    View.ld_unit_zero (S := S16384) hz1, View.ld_unit_zero (S := S80x80) hz2, View.ld_unit_zero (S := S1x1) hz2]

/-- and the result block at that accumulator. -/
theorem out_C (c : Dev nD) (i : grid0.Coords) (a2 : Memref sig .tc .vmem S16384x80 .f32) (h2 : a2.IsWhole) (a3 : Memref sig .tc .vmem S16384 .i32) (h3 : a3.IsWhole) (a4 : Memref sig .tc .vmem S80x80 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S16384x80 .f32) (x1 : Vec F S16384 .i32) (x2 : Vec F S80x80 .f32) (xs0 : Vec F S1x1 .f32) :
    out0_C_3 c i a2 h2 a3 h3 a4 h4 a5 h5 a6 h6 hc0 hc1 x0 x1 x2 xs0 = k0_pay3 (k0_pay2 x1 x0 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readCov_unit_zero (S := S1x1) _ hz2, View.readAt_eq_ld, h2.read_unread, h3.read_unread, h4.read_unread, h6.read_unread,
    View.ld_unit_zero (S := S16384x80) hz2, View.ld_unit_zero (S := S16384) hz1, View.ld_unit_zero (S := S80x80) hz2,
    View.ld_unit_zero (S := S1x1) hz2]

end Pieces

section Value

variable (m : (ℓ : Loc nD τ sig) → Buf (Elt Ideal) ℓ) (ρ : Dev nD → PrngReg)

/-- The three argument arrays, and their blocks at a grid point, under their literal types. -/
abbrev xarr (c : Dev nD) : Vec Ideal S524288x80 .f32 := m ((c : Thread nD τ).loc main_arg0)
abbrev tarr (c : Dev nD) : Vec Ideal S524288 .i32 := m ((c : Thread nD τ).loc main_arg1)
abbrev parr (c : Dev nD) : Vec Ideal S80x80 .f32 := m ((c : Thread nD τ).loc main_arg2)
abbrev xblk (c : Dev nD) (t : Fin cfg0.N) : Vec Ideal S16384x80 .f32 := iblk m c 0 t
abbrev tblk (c : Dev nD) (t : Fin cfg0.N) : Vec Ideal S16384 .i32 := iblk m c 1 t
abbrev pblk (c : Dev nD) (t : Fin cfg0.N) : Vec Ideal S80x80 .f32 := iblk m c 2 t

/-- Where the windows' blocks lie: point `t` reads sample block `t` and the whole table, and writes result entry `t / 16`. -/
theorem idx_facts : ∀ t : Fin cfg0.N, win0_0.index t 0 = t.val ∧ win0_0.index t 1 = 0 ∧ win0_1.index t 0 = t.val
    ∧ win0_2.index t 0 = 0 ∧ win0_2.index t 1 = 0 ∧ win0_3.index t 0 = t.val / 16 ∧ win0_3.index t 1 = 0 ∧ win0_3.index t 2 = 0 :=
  (by decide +kernel : ∀ t : Fin grid0.N, win0_0.index t 0 = t.val ∧ win0_0.index t 1 = 0 ∧ win0_1.index t 0 = t.val
    ∧ win0_2.index t 0 = 0 ∧ win0_2.index t 1 = 0 ∧ win0_3.index t 0 = t.val / 16 ∧ win0_3.index t 1 = 0 ∧ win0_3.index t 2 = 0)

/-- Row `r` of the probabilities' block at point `t` is row `16384 t + r` of the array. -/
theorem xblk_apply (c : Dev nD) (t : Fin cfg0.N) (r : Fin 16384) (j : Fin 80) (h : 16384 * t.val + r.val < 524288) :
    xblk m c t (ix2 r j) = xarr m c (ix2 ⟨16384 * t.val + r.val, h⟩ j) := by
  have hi := idx_facts t
  unfold xblk iblk
  rw [View.read_apply]
  show V m c main_arg0 _ = m ((c : Thread nD τ).loc main_arg0) _
  rw [V_main_arg0]
  congr 1
  funext a
  apply Fin.ext
  match a with
  | ⟨0, _⟩ => show win0_0.index t 0 * 16384 + 1 * r.val = 16384 * t.val + r.val; rw [hi.1]; omega
  | ⟨1, _⟩ => show win0_0.index t 1 * 80 + 1 * j.val = j.val; rw [hi.2.1]; omega

/-- Entry `r` of the labels' block at point `t` is entry `16384 t + r` of the array. -/
theorem tblk_apply (c : Dev nD) (t : Fin cfg0.N) (r : Fin 16384) (h : 16384 * t.val + r.val < 524288) :
    tblk m c t (ix1 r) = tarr m c (ix1 ⟨16384 * t.val + r.val, h⟩) := by
  have hi := idx_facts t
  unfold tblk iblk
  rw [View.read_apply]
  show V m c main_arg1 _ = m ((c : Thread nD τ).loc main_arg1) _
  rw [V_main_arg1]
  congr 1
  funext a
  apply Fin.ext
  match a with
  | ⟨0, _⟩ => show win0_1.index t 0 * 16384 + 1 * r.val = 16384 * t.val + r.val; rw [hi.2.2.1]; omega

/-- The table's block is the table. -/
theorem pblk_apply (c : Dev nD) (t : Fin cfg0.N) (i j : Fin 80) :
    pblk m c t (ix2 i j) = parr m c (ix2 i j) := by
  have hi := idx_facts t
  unfold pblk iblk
  rw [View.read_apply]
  show V m c main_arg2 _ = m ((c : Thread nD τ).loc main_arg2) _
  rw [V_main_arg2]
  congr 1
  funext a
  apply Fin.ext
  match a with
  | ⟨0, _⟩ => show win0_2.index t 0 * 80 + 1 * i.val = i.val; rw [hi.2.2.2.1]; omega
  | ⟨1, _⟩ => show win0_2.index t 1 * 80 + 1 * j.val = j.val; rw [hi.2.2.2.2.1]; omega

/-- Block `n`'s contribution, from the argument arrays. -/
def blk (c : Dev nD) (n : ℕ) : EReal := Cert.Lsr.blockOf (xarr m c) (tarr m c) (parr m c) n

/-- The block sum of the blocks at point `t` is block `t`'s contribution. -/
theorem blockSum_blk (c : Dev nD) (t : Fin cfg0.N) :
    Cert.Lsr.blockSum (fun r => tblk m c t (ix1 r)) (fun r j => Ideal.log (xblk m c t (ix2 r j))) (fun i j => pblk m c t (ix2 i j))
      = blk m c t.val := by
  have hN : t.val < 32 := lt_of_lt_of_eq t.isLt (show cfg0.N = 32 from N_0)
  have hb : ∀ r : Fin 16384, 16384 * t.val + r.val < 524288 := fun r => by have := r.isLt; omega
  unfold blk Cert.Lsr.blockOf
  congr 1
  · funext r
    rw [tblk_apply m c t r (hb r)]
    unfold Cert.Lsr.tgAt
    rw [dif_pos (hb r)]
  · funext r j
    rw [xblk_apply m c t r j (hb r)]
    unfold Cert.Lsr.logAt
    rw [dif_pos (hb r)]
  · funext i j
    exact pblk_apply m c t i j

/-- What the accumulator holds after a resetting point, -/
theorem scr_A (c : Dev nD) (t : Fin cfg0.N) (h0 : t.val % 16 = 0) (h1 : ¬t.val % 16 = 15) :
    (outsAt0 m c t.val t.isLt).2 = k0_pay2 (F := Ideal) (tblk m c t) (xblk m c t) (pblk m c t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- after a middle point, -/
theorem scr_B (c : Dev nD) (t : Fin cfg0.N) (h0 : ¬t.val % 16 = 0) (h1 : ¬t.val % 16 = 15) :
    (outsAt0 m c t.val t.isLt).2 = k0_pay2 (F := Ideal) (tblk m c t) (xblk m c t) (pblk m c t)
      (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- and after a core's last point, where the result block is the accumulator. -/
theorem scr_C (c : Dev nD) (t : Fin cfg0.N) (h0 : ¬t.val % 16 = 0) (h1 : t.val % 16 = 15) :
    (outsAt0 m c t.val t.isLt).2 = k0_pay2 (F := Ideal) (tblk m c t) (xblk m c t) (pblk m c t)
      (outsAt0 m c (t.val - 1) (Nat.lt_of_le_of_lt (Nat.sub_le _ _) t.isLt)).2
    ∧ (outsAt0 m c t.val t.isLt).1 = k0_pay3 (F := Ideal) (outsAt0 m c t.val t.isLt).2 := by
  rw [outsAt0_C m c t h0 h1]
  dsimp only
  refine ⟨sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, ?_⟩
  rw [sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE ACCUMULATOR after point `n`: core `n / 16`'s running sum of its blocks `0 … n % 16` — by induction on the point. -/
theorem scr_eq (c : Dev nD) : ∀ (n : ℕ) (h : n < cfg0.N),
    (outsAt0 m c n h).2 (ix2 0 0) = Cert.Lsr.acc (blk m c) (n / 16) (n % 16)
  | 0, h => by
    rw [show (outsAt0 m c 0 h).2 = _ from scr_A m c ⟨0, h⟩ (Nat.zero_mod _) (by show ¬(0 % 16 = 15); omega), pay2_apply, pay1_apply, blockSum_blk]
    rfl
  | n + 1, h => by
    have ih := scr_eq c n (Nat.lt_of_succ_lt h)
    by_cases h0 : (n + 1) % 16 = 0
    · have h1 : ¬(n + 1) % 16 = 15 := by omega
      rw [show (outsAt0 m c (n + 1) h).2 = _ from scr_A m c ⟨n + 1, h⟩ h0 h1, pay2_apply, pay1_apply, blockSum_blk, h0]
      show 0 + blk m c (n + 1) = 0 + blk m c (16 * ((n + 1) / 16))
      rw [show 16 * ((n + 1) / 16) = n + 1 by omega]
    · have hstep : (outsAt0 m c (n + 1) h).2 = k0_pay2 (F := Ideal) (tblk m c ⟨n + 1, h⟩) (xblk m c ⟨n + 1, h⟩) (pblk m c ⟨n + 1, h⟩)
          (outsAt0 m c n (Nat.lt_of_succ_lt h)).2 := by
        by_cases h1 : (n + 1) % 16 = 15
        · exact (scr_C m c ⟨n + 1, h⟩ h0 h1).1
        · exact scr_B m c ⟨n + 1, h⟩ h0 h1
      rw [hstep, pay2_apply, blockSum_blk, ih]
      obtain ⟨k, hk⟩ : ∃ k, (n + 1) % 16 = k + 1 := ⟨(n + 1) % 16 - 1, by omega⟩
      rw [hk, show (n + 1) / 16 = n / 16 by omega, show n % 16 = k by omega]
      show _ = Cert.Lsr.acc (blk m c) (n / 16) k + blk m c (16 * (n / 16) + (k + 1))
      rw [show 16 * (n / 16) + (k + 1) = n + 1 by omega]

/-- The result array the kernel ends with: entry `c0` is core `c0`'s total. -/
def outArr (c : Dev nD) : Vec Ideal S2x1x1 .f32 := fun i => Cert.Lsr.acc (blk m c) (i 0).val 15

/-- The one index of a 1 × 1 × 1 block. -/
theorem idx111 (y : S1x1x1.Idx) : y = ix3 0 0 0 := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => exact Fin.ext (by have : (y 2).val < 1 := (y 2).isLt; show (y 2).val = 0; omega)

/-- A core's last point writes its total back as result entry `t / 16`. -/
theorem flushed_eq (c : Dev nD) (t : Fin cfg0.N) (hf : (cfg0.win 3).flush t = true) :
    (dats m 0 c).flushed 3 t = ((cfg0.win 3).blk t).view.read (Elt Ideal) (outArr m c) := by
  have h1 : t.val % 16 = 15 := (flush0_3 t).mp hf
  have h0 : ¬t.val % 16 = 0 := by omega
  have hi := idx_facts t
  show (cfg0.win 3).cut (grid0.coords t) ((dats m 0 c).after 3 t) = _
  rw [after0_3]
  funext y
  rw [View.read_apply]
  show ((outsAt0 m c t.val t.isLt).1 : Vec Ideal S1x1x1 .f32) y = outArr m c (((cfg0.win 3).blk t).view.emb y)
  have hy : (y : S1x1x1.Idx) = ix3 0 0 0 := idx111 y
  rw [hy, (scr_C m c t h0 h1).2, pay3_apply, scr_eq m c t.val t.isLt, h1]
  unfold outArr
  congr 1
  show t.val / 16 = win0_3.index t 0 * 1 + 1 * 0
  rw [hi.2.2.2.2.2.1]
  omega

/-- The result window's blocks are single entries. -/
theorem xsize_facts : ∀ t : Fin cfg0.N, win0_3.xsize (grid0.coords t) 0 = 1 ∧ win0_3.xsize (grid0.coords t) 1 = 1 ∧ win0_3.xsize (grid0.coords t) 2 = 1 :=
  (by decide +kernel : ∀ t : Fin grid0.N, win0_3.xsize (grid0.coords t) 0 = 1 ∧ win0_3.xsize (grid0.coords t) 1 = 1 ∧ win0_3.xsize (grid0.coords t) 2 = 1)

/-- The two write-backs cover the result array, so it ends holding the two cores' totals. -/
theorem final3 (c : Dev nD) : (dats m 0 c).arrAt 3 cfg0.N = outArr m c :=
  (dats m 0 c).arrAt_eq_of_cover 3 (outArr m c) (flushed_eq m c) fun i => by
    have hN : cfg0.N = 32 := N_0
    have hi0 : (i 0 : Nat) < 2 := (i 0).isLt
    have hi1 : (i 1 : Nat) < 1 := (i 1).isLt
    have hi2 : (i 2 : Nat) < 1 := (i 2).isLt
    have ht : 16 * (i 0 : Nat) + 15 < cfg0.N := by omega
    refine ⟨⟨16 * (i 0 : Nat) + 15, ht⟩, (flush0_3 _).mpr (by show (16 * (i 0 : Nat) + 15) % 16 = 15; omega), ?_⟩
    have hi := idx_facts ⟨16 * (i 0 : Nat) + 15, ht⟩
    have hx := xsize_facts ⟨16 * (i 0 : Nat) + 15, ht⟩
    show i ∈ ((View.whole main_v0).slice (win0_3.rect ⟨16 * (i 0 : Nat) + 15, ht⟩)).set
    rw [View.set_slice_whole, Rect.mem_set_unit]
    intro a
    match a with
    | ⟨0, _⟩ =>
      show win0_3.index ⟨16 * (i 0 : Nat) + 15, ht⟩ 0 * 1 ≤ (i 0 : Nat) ∧ (i 0 : Nat) < win0_3.index ⟨16 * (i 0 : Nat) + 15, ht⟩ 0 * 1 + win0_3.xsize (grid0.coords ⟨16 * (i 0 : Nat) + 15, ht⟩) 0
      rw [hi.2.2.2.2.2.1, hx.1]
      show (16 * (i 0 : Nat) + 15) / 16 * 1 ≤ (i 0 : Nat) ∧ (i 0 : Nat) < (16 * (i 0 : Nat) + 15) / 16 * 1 + 1
      omega
    | ⟨1, _⟩ =>
      show win0_3.index ⟨16 * (i 0 : Nat) + 15, ht⟩ 1 * 1 ≤ (i 1 : Nat) ∧ (i 1 : Nat) < win0_3.index ⟨16 * (i 0 : Nat) + 15, ht⟩ 1 * 1 + win0_3.xsize (grid0.coords ⟨16 * (i 0 : Nat) + 15, ht⟩) 1
      rw [hi.2.2.2.2.2.2.1, hx.2.1]
      omega
    | ⟨2, _⟩ =>
      show win0_3.index ⟨16 * (i 0 : Nat) + 15, ht⟩ 2 * 1 ≤ (i 2 : Nat) ∧ (i 2 : Nat) < win0_3.index ⟨16 * (i 0 : Nat) + 15, ht⟩ 2 * 1 + win0_3.xsize (grid0.coords ⟨16 * (i 0 : Nat) + 15, ht⟩) 2
      rw [hi.2.2.2.2.2.2.2, hx.2.2]
      omega

/-- The result array's two entries, indexed by the core. -/
def e211 : Fin 2 ≃ S2x1x1.Idx where
  toFun c0 := ix3 c0 0 0
  invFun i := i 0
  left_inv _ := rfl
  right_inv i := by
    funext a
    match a with
    | ⟨0, _⟩ => rfl
    | ⟨1, _⟩ => exact Fin.ext (by have : (i 1).val < 1 := (i 1).isLt; show 0 = (i 1).val; omega)
    | ⟨2, _⟩ => exact Fin.ext (by have : (i 2).val < 1 := (i 2).isLt; show 0 = (i 2).val; omega)

/-- The host operations after the region: the two totals added from a zero, divided by the number of samples, negated. -/
theorem tail_eq (c : Dev nD) :
    Pipeline.afterTail₀ cfgs (dats m) 0 (V0 m) [hostOps1] c main_v3 = fun _ => Cert.Lsr.kernelVal (blk m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v0) = outArr m c from
    (Pipeline.withArrays_arr spec0 launch0.win.arr_inj c _ _ 3).trans (final3 m c)]
  funext j
  show -(Ideal.div (Ideal.hostReduceAdd reducesTo_S2x1x1_S_d0_1_2 (outArr m c) (Ideal.ofBits .f32 0x00000000#32) j) (Ideal.ofBits .f32 0x49000000#32))
    = Cert.Lsr.kernelVal (blk m c)
  rw [Ideal.hostReduceAdd_total reducesTo_S2x1x1_S_d0_1_2 (fun b => b.elim0) (outArr m c) _ j, Ideal.ofBits_zero_f32,
    ← Equiv.sum_comp e211 (outArr m c)]
  rfl

/-- The result buffer bypasses the region: it is no window's array. -/
theorem v3_rest : main_v3 ∈ Pipeline.restRefs sig (cfgs 0).spec :=
  Pipeline.mem_restRefs_of main_v3 rfl (by decide)

/-- THE RUN, READ: every execution ends with the result at `kernelVal` of the block sums and the arguments unchanged. -/
theorem run : θ_run defs (onTc (τ := τ) (main (F := Ideal))) ⟨m, fun _ => 0, ρ⟩ fun r => ∀ c : Dev nD,
      r.2.mem ((c.tc : Thread nD τ).loc main_v3) = (fun _ => Cert.Lsr.kernelVal (blk m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v3 v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Value

end Cert.Lsr.Ker

end
-- ==== Proof.lean ====
/-
  The label-smoothing loss: `-(1/B) ∑ₜ ∑ⱼ log p[t, j] · prior[label t, j]` over B = 524288 samples and 80 classes.

  The reference gathers each sample's prior row, multiplies by the log-probabilities, sums over classes, negates, and
  averages over samples.  The kernel never forms the gathered rows: in each block of 16384 samples it contracts the one-hot
  matrix of the labels with the log-probabilities over the samples (an 80 × 80 matrix product), weights the result entrywise
  by the prior table and sums it; sixteen such block sums are accumulated on each of two cores, and the host adds the two
  totals, divides by B and negates.  Over the extended reals the two agree exactly where every probability is positive and
  finite (so its logarithm is a real number), the prior table is finite, and every label is a class in [0, 80): there all
  sums are sums of reals, the one-hot contraction selects row `label t` of the table, the blocks tile the samples, and minus
  distributes over the sums.  Outside that domain they differ (a label out of range selects no row in the kernel but a
  clamped row in the reference; a zero probability gives an infinite logarithm whose sign the two sides treat differently),
  which is why the precondition states it.

  Frames: the kernel's two programs have generated frame proofs; the reference's frame is its run with the result dropped.
  The idealization rewrote nothing, so `preserves` is trivial.
-/
import proofs.«402756_j75067438400064_3_alg».proof.Defs
import proofs.«402756_j75067438400064_3_alg».proof.Proof.Gen.Kernel
import proofs.«402756_j75067438400064_3_alg».proof.Proof.Gen.Kernel.Skeleton
import proofs.«402756_j75067438400064_3_alg».proof.Proof.Gen.Kernel.Launch
import proofs.«402756_j75067438400064_3_alg».proof.Proof.Gen.Kernel.Points
import proofs.«402756_j75067438400064_3_alg».proof.Proof.Gen.Kernel.Frame
import proofs.«402756_j75067438400064_3_alg».proof.Proof.Gen.KernelIdeal
import proofs.«402756_j75067438400064_3_alg».proof.Proof.Gen.KernelIdeal.Skeleton
import proofs.«402756_j75067438400064_3_alg».proof.Proof.Gen.KernelIdeal.Launch
import proofs.«402756_j75067438400064_3_alg».proof.Proof.Gen.KernelIdeal.Points
import proofs.«402756_j75067438400064_3_alg».proof.Proof.Gen.KernelIdeal.Frame
import proofs.«402756_j75067438400064_3_alg».proof.Proof.Gen.ReferenceIdeal
import proofs.«402756_j75067438400064_3_alg».proof.Proof.Gen.ReferenceIdeal.Run
import proofs.«402756_j75067438400064_3_alg».proof.Proof.Gen.Pre_finite_inputs
import proofs.«402756_j75067438400064_3_alg».proof.Proof.Spec
import proofs.«402756_j75067438400064_3_alg».proof.Proof.Algebra
import proofs.«402756_j75067438400064_3_alg».proof.Proof.PreFacts
import proofs.«402756_j75067438400064_3_alg».proof.Proof.RefValue
import proofs.«402756_j75067438400064_3_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition both programs end at the mean loss of the arguments: the kernel's block-accumulated value and
    the reference's gathered sum are the same real number. -/
theorem algebraic : Cert.algebraic_KernelIdeal_ReferenceIdeal := by
  intro m ρ m' ρ' hpre hagree
  refine ⟨fun c => fun _ => Cert.Lsr.kernelVal (Cert.Lsr.Ker.blk m c), Cert.Lsr.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨L, p, g, hdom⟩ := Cert.Lsr.inDomain_of_pre _ _ _ (hpre c)
  rw [(hagree c).1, (hagree c).2.1, (hagree c).2.2]
  refine (Cert.Lsr.Ref.term_eq _ _ _ g hdom.hg).trans ?_
  funext _
  rw [Cert.Lsr.refVal_eq hdom]
  exact (Cert.Lsr.kernelVal_eq hdom).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
